-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S1024x2048 : Shape := ⟨2, ![1024, 2048]⟩
abbrev S1024 : Shape := ⟨1, ![1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x2048 .f32) (main_arg1 : FVec F S2048 .f32) (main_arg2 : FVec F S1024x2048 .f32) (main_arg3 : FVec F S1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x2048 : Shape := ⟨2, ![8192, 2048]⟩
abbrev S2048 : Shape := ⟨1, ![2048]⟩
abbrev S1024x2048 : Shape := ⟨2, ![1024, 2048]⟩
abbrev S1024 : Shape := ⟨1, ![1024]⟩
abbrev S_ : Shape := ⟨0, ![]⟩
abbrev S2048x1024 : Shape := ⟨2, ![2048, 1024]⟩
abbrev S1x2048 : Shape := ⟨2, ![1, 2048]⟩
abbrev S1x1024 : Shape := ⟨2, ![1, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 21
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1024x2048, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8192x2048, .f32⟩
  | .hbm, ⟨7, _⟩ => ⟨S2048x1024, .f32⟩
  | .hbm, ⟨8, _⟩ => ⟨S_, .i32⟩
  | .hbm, ⟨9, _⟩ => ⟨S_, .f32⟩
  | .hbm, ⟨10, _⟩ => ⟨S2048x1024, .f32⟩
  | .hbm, ⟨11, _⟩ => ⟨S2048x1024, .bf16⟩
  | .hbm, ⟨12, _⟩ => ⟨S_, .i32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S_, .i32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_call3_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S8192x2048_S8192x2048_000_000 : S8192x2048.Pads (![0, 0] : Fin 2 → Nat) ![0, 0] ![0, 0] S8192x2048
  h_S_ : 0 < S_.numel
  transposes_S1024x2048_S2048x1024_1_0 : S1024x2048.Transposes [1, 0] S2048x1024
  pads_S2048x1024_S2048x1024_000_000 : S2048x1024.Pads (![0, 0] : Fin 2 → Nat) ![0, 0] ![0, 0] S2048x1024
  bitsLt_bf16_f32 : FTy.bits .bf16 < FTy.bits .f32
  pads_S2048_S2048_000 : S2048.Pads (![0] : Fin 1 → Nat) ![0] ![0] S2048
  shapeCasts_S2048_S1x2048 : S2048.ShapeCasts S1x2048
  pads_S1024_S1024_000 : S1024.Pads (![0] : Fin 1 → Nat) ![0] ![0] S1024
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048 : Shape := ⟨1, ![2048]⟩
abbrev S1024x2048 : Shape := ⟨2, ![1024, 2048]⟩
abbrev S1024 : Shape := ⟨1, ![1024]⟩
abbrev S_ : Shape := ⟨0, ![]⟩
abbrev S2048x1024 : Shape := ⟨2, ![2048, 1024]⟩
abbrev S1x2048 : Shape := ⟨2, ![1, 2048]⟩
abbrev S1x1024 : Shape := ⟨2, ![1, 1024]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 20
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1024x2048, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8192x2048, .f32⟩
  | .hbm, ⟨7, _⟩ => ⟨S2048x1024, .f32⟩
  | .hbm, ⟨8, _⟩ => ⟨S_, .i32⟩
  | .hbm, ⟨9, _⟩ => ⟨S_, .f32⟩
  | .hbm, ⟨10, _⟩ => ⟨S2048x1024, .f32⟩
  | .hbm, ⟨11, _⟩ => ⟨S_, .i32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S_, .i32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_c_2 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S8192x2048_S8192x2048_000_000 : S8192x2048.Pads (![0, 0] : Fin 2 → Nat) ![0, 0] ![0, 0] S8192x2048
  h_S_ : 0 < S_.numel
  transposes_S1024x2048_S2048x1024_1_0 : S1024x2048.Transposes [1, 0] S2048x1024
  pads_S2048x1024_S2048x1024_000_000 : S2048x1024.Pads (![0, 0] : Fin 2 → Nat) ![0, 0] ![0, 0] S2048x1024
  pads_S2048_S2048_000 : S2048.Pads (![0] : Fin 1 → Nat) ![0] ![0] S2048
  shapeCasts_S2048_S1x2048 : S2048.ShapeCasts S1x2048
  pads_S1024_S1024_000 : S1024.Pads (![0] : Fin 1 → Nat) ![0] ![0] S1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x2048.size a
  hwx0_0 : ∀ i : grid0.Coords, EltTy.bits .f32 = 32 ∨ (Rect.block (s := S8192x2048) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x2048.size a
  hwx0_1 : ∀ i : grid0.Coords, EltTy.bits .f32 = 32 ∨ (Rect.block (s := S1x2048) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x1024.size a
  hwx0_2 : ∀ i : grid0.Coords, EltTy.bits .f32 = 32 ∨ (Rect.block (s := S2048x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== Proof.Spec.lean ====
/-
  The modulated linear head as ONE function of its four argument arrays, over the extended reals:

      head x θ γ b (r, t) = (∑ f, (x[r, f] · θ[f]) · γ[t, f]) + b[t]        r < 8192, f < 2048, t < 1024.

  Both programs are proved to end with their result array at this function of their arguments: the one-pass
  kernel contracts all 2048 features of a row block at once; the two-pass kernel contracts features 0..1023 into a
  zeroed accumulator and then adds features 1024..2047, so its entry is `(0 + ∑ lower half) + ∑ upper half` before the
  bias is added. The only law between the two is that a sum over `Fin 2048` splits into its two halves
  (`sum_halves`): additions of extended reals re-bracketed, never distributed, so no finiteness is used.
-/
import Idealize.ShloMosaic.PureOps.Ideal
import Idealize.ShloMosaic.Lib.ValueIdx
import Mathlib.Algebra.BigOperators.Fin

noncomputable section

open scoped BigOperators
open Idealize.ShloMosaic Idealize.ShloMosaic.ValueIdx

namespace Cert.ModLinear

/-- Entry `(r, t)` of the head: the row's features scaled by `θ`, contracted against row `t` of `γ`, plus `b[t]`. -/
def headAt (x : FVec Ideal ⟨2, ![8192, 2048]⟩ .f32) (θ : FVec Ideal ⟨1, ![2048]⟩ .f32)
    (γ : FVec Ideal ⟨2, ![1024, 2048]⟩ .f32) (b : FVec Ideal ⟨1, ![1024]⟩ .f32) (r : Fin 8192) (t : Fin 1024) : EReal :=
  (∑ f : Fin 2048, x (ix2 r f) * θ (ix1 f) * γ (ix2 t f)) + b (ix1 t)

/-- The whole result array. -/
def head (x : FVec Ideal ⟨2, ![8192, 2048]⟩ .f32) (θ : FVec Ideal ⟨1, ![2048]⟩ .f32)
    (γ : FVec Ideal ⟨2, ![1024, 2048]⟩ .f32) (b : FVec Ideal ⟨1, ![1024]⟩ .f32) : FVec Ideal ⟨2, ![8192, 1024]⟩ .f32 :=
  fun i => headAt x θ γ b (i 0) (i 1)

theorem head_ix2 (x : FVec Ideal ⟨2, ![8192, 2048]⟩ .f32) (θ : FVec Ideal ⟨1, ![2048]⟩ .f32)
    (γ : FVec Ideal ⟨2, ![1024, 2048]⟩ .f32) (b : FVec Ideal ⟨1, ![1024]⟩ .f32) (r : Fin 8192) (t : Fin 1024) :
    head x θ γ b (ix2 r t) = headAt x θ γ b r t := rfl

/-- Feature `k` of the lower half, -/
abbrev lo (k : Fin 1024) : Fin 2048 := ⟨k.val, by omega⟩
/-- and of the upper half. -/
abbrev hi (k : Fin 1024) : Fin 2048 := ⟨1024 + k.val, by omega⟩

/-- A sum over the 2048 features is the sum over the lower half, started from zero, plus the sum over the upper half. -/
theorem sum_halves (g : Fin 2048 → EReal) :
    ∑ f, g f = (0 + ∑ k : Fin 1024, g (lo k)) + ∑ k : Fin 1024, g (hi k) := by
  rw [zero_add]
  exact Fin.sum_univ_add (a := 1024) (b := 1024) g

end Cert.ModLinear

end
-- ==== Proof.KernelPayload.lean ====
/-
  The one-pass kernel's body at an entry of its output block. The body multiplies the 512 × 2048 row block of `x` by the
  one row `θ` copied down the rows, narrows the product (the identity on extended reals), contracts it against the
  2048 × 1024 block of `γᵀ` into a zero accumulator, and adds the bias row copied down the rows. So entry `(p, q)` of what it
  stores is `(∑ k < 2048, (x₀[p, k] · x₁[0, k]) · x₂[k, q]) + x₃[0, q]` of the four loaded blocks.
-/
import proofs.«124155_g2000103749768661_pallasbulk_655_2_alg».proof.Proof.Gen.KernelIdeal.Skeleton
import proofs.«124155_g2000103749768661_pallasbulk_655_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.HeadValue

open Cert.KernelIdeal Cert.KernelIdeal.Gen

/-! ## The contraction's operand indices, axis by axis -/

theorem lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

theorem lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q

theorem rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q

theorem rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-! ## The block product at an entry -/

/-- The contraction into the zero accumulator, at `(p, q)`: the sum over the 2048 features of left entry `(p, k)` times
    right entry `(k, q)`. -/
theorem product_apply (a : FVec Ideal S512x2048 .bf16) (g : FVec Ideal S2048x1024 .bf16) (p : Fin 512) (q : Fin 1024) :
    matmul dot_S512x2048_S2048x1024_S512x1024_1_0_0_1_n_n none a g (constant S512x1024 .f32 0x00000000#32) (ix2 p q)
      = ∑ k : Fin 2048, a (ix2 p k) * g (ix2 k q) := by
  simp only [matmul]
  rw [Ideal.matmul_constant_zero_apply,
    ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q)
      ((contrEquiv1 dot_S512x2048_S2048x1024_S512x1024_1_0_0_1_n_n 2048 rfl rfl).symm k) = ix2 p k :=
    funext fun ax => Fin.ext (by
      match ax with
      | ⟨0, _⟩ => exact lhs_0 _ _
      | ⟨1, _⟩ => exact (lhs_1 _ _).trans hk)
  have er : dot_S512x2048_S2048x1024_S512x1024_1_0_0_1_n_n.rhsIdx (ix2 p q)
      ((contrEquiv1 dot_S512x2048_S2048x1024_S512x1024_1_0_0_1_n_n 2048 rfl rfl).symm k) = ix2 k q :=
    funext fun ax => Fin.ext (by
      match ax with
      | ⟨0, _⟩ => exact (rhs_0 _ _).trans hk
      | ⟨1, _⟩ => exact rhs_1 _ _)
  rw [el, er]

/-- What the body stores, at entry `(p, q)` of the output block. -/
theorem stored_apply (x0 : Vec Ideal S512x2048 .f32) (x1 : Vec Ideal S1x2048 .f32) (x2 : Vec Ideal S2048x1024 .bf16)
    (x3 : Vec Ideal S1x1024 .f32) (p : Fin 512) (q : Fin 1024) :
    k0_pay1 (F := Ideal) x0 x1 x2 x3 (ix2 p q)
      = (∑ k : Fin 2048, x0 (ix2 p k) * x1 (ix2 (0 : Fin 1) k) * x2 (ix2 k q)) + x3 (ix2 (0 : Fin 1) q) := by
  unfold k0_pay1
  simp only [shapeCast_self]
  rw [addf_apply, product_apply, broadcastTo_1b_ab_apply]
  refine congrArg (· + x3 (ix2 (0 : Fin 1) q)) (Finset.sum_congr rfl fun k _ => ?_)
  rw [truncf_apply, mulf_apply, broadcastTo_1b_ab_apply]

/-- So when the four loaded blocks are row `R` of `x`, the row `θ`, the columns of `γᵀ` and the bias row, the stored entry
    is the head at `(R, q)`: term by term the same products, summed over the same 2048 features. -/
theorem stored_eq_headAt (x0 : Vec Ideal S512x2048 .f32) (x1 : Vec Ideal S1x2048 .f32) (x2 : Vec Ideal S2048x1024 .bf16)
    (x3 : Vec Ideal S1x1024 .f32) (X : FVec Ideal ⟨2, ![8192, 2048]⟩ .f32) (θ : FVec Ideal ⟨1, ![2048]⟩ .f32)
    (γ : FVec Ideal ⟨2, ![1024, 2048]⟩ .f32) (b : FVec Ideal ⟨1, ![1024]⟩ .f32) (R : Fin 8192) (p : Fin 512) (q : Fin 1024)
    (h0 : ∀ k : Fin 2048, x0 (ix2 p k) = X (ix2 R k)) (h1 : ∀ k : Fin 2048, x1 (ix2 (0 : Fin 1) k) = θ (ix1 k))
    (h2 : ∀ k : Fin 2048, x2 (ix2 k q) = γ (ix2 q k)) (h3 : x3 (ix2 (0 : Fin 1) q) = b (ix1 q)) :
    k0_pay1 (F := Ideal) x0 x1 x2 x3 (ix2 p q) = Cert.ModLinear.headAt X θ γ b R q := by
  rw [stored_apply, h3]
  unfold Cert.ModLinear.headAt
  refine congrArg (· + b (ix1 q)) (Finset.sum_congr rfl fun k _ => ?_)
  rw [h0 k, h1 k, h2 k]

end Cert.KernelIdeal.HeadValue

end
-- ==== Proof.LibZeroPad.lean ====
/-
  A host `pad` that adds nothing — no low padding, no high padding, no interior padding — returns its operand: every
  index of the result lies inside the operand and reads the operand there, whatever the padding value. Stated for
  matrices and for vectors of any extents.
-/
import Idealize.ShloMosaic.Lib.KernelVsHost

noncomputable section

namespace Idealize.ShloMosaic.ZeroPad

open Idealize.ShloMosaic

variable {α : Type}

/-- A matrix padded by zero on every side and between entries is the matrix. -/
theorem pad_matrix {a b : ℕ} (x : (⟨2, ![a, b]⟩ : Shape).Idx → α) {u : Shape} (v : u.Idx → α)
    (h : (⟨2, ![a, b]⟩ : Shape).Pads (![0, 0] : Fin 2 → Nat) ![0, 0] ![0, 0] ⟨2, ![a, b]⟩) (hu : 0 < u.numel) :
    pad ⟨2, ![a, b]⟩ ![0, 0] ![0, 0] ![0, 0] x v h hu = x :=
  funext fun j => pad_apply_of_inside _ _ _ x v h hu j j fun ax => by
    match ax with
    | ⟨0, _⟩ => show (j 0).val = 0 + (j 0).val * (0 + 1); omega
    | ⟨1, _⟩ => show (j 1).val = 0 + (j 1).val * (0 + 1); omega

/-- A vector padded by zero on both ends and between entries is the vector. -/
theorem pad_vector {a : ℕ} (x : (⟨1, ![a]⟩ : Shape).Idx → α) {u : Shape} (v : u.Idx → α)
    (h : (⟨1, ![a]⟩ : Shape).Pads (![0] : Fin 1 → Nat) ![0] ![0] ⟨1, ![a]⟩) (hu : 0 < u.numel) :
    pad ⟨1, ![a]⟩ ![0] ![0] ![0] x v h hu = x :=
  funext fun j => pad_apply_of_inside _ _ _ x v h hu j j fun ax => by
    match ax with
    | ⟨0, _⟩ => show (j 0).val = 0 + (j 0).val * (0 + 1); omega

end Idealize.ShloMosaic.ZeroPad

end
-- ==== Proof.KernelHost.lean ====
/-
  What the one-pass kernel's region finds in its four input arrays. Before the region the host pads each argument by
  nothing, transposes `γ` (and narrows it, the identity on extended reals), and reshapes `θ` and the bias to one-row
  matrices. So the region's arrays are: `x` itself; `θ` as the one row `[0, k] ↦ θ[k]`; `γᵀ`, `[k, q] ↦ γ[q, k]`; the bias as the
  one row `[0, q] ↦ b[q]`.
-/
import proofs.«124155_g2000103749768661_pallasbulk_655_2_alg».proof.Proof.Gen.KernelIdeal.Frame
import proofs.«124155_g2000103749768661_pallasbulk_655_2_alg».proof.Proof.LibZeroPad
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx Idealize.SL.Sem

namespace Cert.KernelIdeal.HeadValue

open Cert.KernelIdeal Cert.KernelIdeal.Gen

variable (m : (ℓ : Loc nD τ sig) → Buf (Elt Ideal) ℓ)

/-- The row-block window's array is `x`. -/
theorem entry_x (c : Dev nD) :
    (V m c main_v0 : S8192x2048.Idx → Ideal .f32) = m ((c : Thread nD τ).loc main_arg0) := by
  have e : (V m c main_v0 : S8192x2048.Idx → Ideal .f32)
      = pad S8192x2048 ![0, 0] ![0, 0] ![0, 0] (m ((c : Thread nD τ).loc main_arg0))
          (sitofp (F := Ideal) .f32 (constantI S_ 32 0#32)) pads_S8192x2048_S8192x2048_000_000 h_S_ := by
    dsimp only [V]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, ZeroPad.pad_matrix]

/-- The modulation window's array is `θ` as one row. -/
theorem entry_theta (c : Dev nD) (u : Fin 1) (k : Fin 2048) :
    (V m c main_v5 : S1x2048.Idx → Ideal .f32) (ix2 u k) = m ((c : Thread nD τ).loc main_arg1) (ix1 k) := by
  have e : (V m c main_v5 : S1x2048.Idx → Ideal .f32)
      = shapeCast S1x2048 (pad S2048 ![0] ![0] ![0] (m ((c : Thread nD τ).loc main_arg1))
          (sitofp (F := Ideal) .f32 (constantI S_ 32 0#32)) pads_S2048_S2048_000 h_S_) shapeCasts_S2048_S1x2048 := by
    dsimp only [V]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, ZeroPad.pad_vector, shapeCast_a_1a_apply]

/-- The weight window's array is `γ` transposed. -/
theorem entry_gamma (c : Dev nD) (k : Fin 2048) (q : Fin 1024) :
    (V m c main_v3 : S2048x1024.Idx → Ideal .bf16) (ix2 k q) = m ((c : Thread nD τ).loc main_arg2) (ix2 q k) := by
  have e : (V m c main_v3 : S2048x1024.Idx → Ideal .bf16)
      = truncf .bf16 (pad S2048x1024 ![0, 0] ![0, 0] ![0, 0]
          (transpose S2048x1024 [1, 0] (m ((c : Thread nD τ).loc main_arg2)) transposes_S1024x2048_S2048x1024_1_0)
          (sitofp (F := Ideal) .f32 (constantI S_ 32 0#32)) pads_S2048x1024_S2048x1024_000_000 h_S_) bitsLt_bf16_f32 := by
    dsimp only [V]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, truncf_apply, ZeroPad.pad_matrix, transpose_ix2_apply]

/-- The bias window's array is the bias as one row. -/
theorem entry_bias (c : Dev nD) (u : Fin 1) (q : Fin 1024) :
    (V m c main_v7 : S1x1024.Idx → Ideal .f32) (ix2 u q) = m ((c : Thread nD τ).loc main_arg3) (ix1 q) := by
  have e : (V m c main_v7 : S1x1024.Idx → Ideal .f32)
      = shapeCast S1x1024 (pad S1024 ![0] ![0] ![0] (m ((c : Thread nD τ).loc main_arg3))
          (sitofp (F := Ideal) .f32 (constantI S_ 32 0#32)) pads_S1024_S1024_000 h_S_) shapeCasts_S1024_S1x1024 := by
    dsimp only [V]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, ZeroPad.pad_vector, shapeCast_a_1a_apply]

end Cert.KernelIdeal.HeadValue

end
-- ==== Proof.KernelValue.lean ====
/-
  The one-pass kernel's result array. Grid point `t` (of 16) takes rows `512 t … 512 t + 511` of `x`, the whole of `θ`, `γᵀ`
  and the bias, and writes back rows `512 t … 512 t + 511` of the result. What it writes at `(512 t + p, q)` is the head at
  that entry (the body's stored value over blocks that are exactly those rows and columns of the arguments), the 16 row
  blocks tile the 8192 rows, so the array ends holding the head of the four arguments.
-/
import proofs.«124155_g2000103749768661_pallasbulk_655_2_alg».proof.Proof.Gen.KernelIdeal.Value
import proofs.«124155_g2000103749768661_pallasbulk_655_2_alg».proof.Proof.Spec
import proofs.«124155_g2000103749768661_pallasbulk_655_2_alg».proof.Proof.KernelPayload
import proofs.«124155_g2000103749768661_pallasbulk_655_2_alg».proof.Proof.KernelHost
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.HeadValue

open Cert.KernelIdeal Cert.KernelIdeal.Gen

variable (m : (ℓ : Loc nD τ sig) → Buf (Elt Ideal) ℓ) (ρ : Dev nD → PrngReg)

theorem offsets_zero : (![0, 0] : Fin 2 → Nat) = fun _ => 0 := funext fun a => by fin_cases a <;> rfl

/-- The head of the four arguments as core `c` holds them. -/
abbrev result (c : Dev nD) : S8192x1024.Idx → Ideal .f32 :=
  Cert.ModLinear.head (m ((c : Thread nD τ).loc main_arg0)) (m ((c : Thread nD τ).loc main_arg1))
    (m ((c : Thread nD τ).loc main_arg2)) (m ((c : Thread nD τ).loc main_arg3))

/-- The index maps over the grid: the row-block window and the output move to row block `t`; the other three stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `512 t + p` of the array. -/
abbrev rowOf (t : Fin cfg0.N) (p : Fin 512) : Fin 8192 :=
  ⟨t.val * 512 + p.val, by have h : t.val < 16 := lt_of_lt_of_eq t.isLt N_0; have := p.isLt; omega⟩

/-- The row-block window's block at `t` holds rows `512 t …` of `x`. -/
theorem block_x (c : Dev nD) (t : Fin cfg0.N) (p : Fin 512) (k : Fin 2048) :
    iblk m c 0 t (ix2 p k) = m ((c : Thread nD τ).loc main_arg0) (ix2 (rowOf t p) k) := by
  unfold iblk
  show (V m c main_v0 : S8192x2048.Idx → Ideal .f32) (((cfg0.win 0).blk t).view.emb (ix2 p k)) = _
  rw [entry_x]
  refine congrArg _ (funext fun a => Fin.ext ?_)
  obtain ⟨e0, e1, -⟩ := block_indices t
  match a with
  | ⟨0, _⟩ => show win0_0.index t (0 : Fin 2) * 512 + 1 * p.val = t.val * 512 + p.val; omega
  | ⟨1, _⟩ => show win0_0.index t (1 : Fin 2) * 2048 + 1 * k.val = k.val; omega

/-- The modulation window's block is the row `θ`. -/
theorem block_theta (c : Dev nD) (t : Fin cfg0.N) (k : Fin 2048) :
    iblk m c 1 t (ix2 (0 : Fin 1) k) = m ((c : Thread nD τ).loc main_arg1) (ix1 k) := by
  unfold iblk
  show (V m c main_v5 : S1x2048.Idx → Ideal .f32) (((cfg0.win 1).blk t).view.emb (ix2 (0 : Fin 1) k)) = _
  rw [← entry_theta m c 0 k]
  refine congrArg _ (funext fun a => Fin.ext ?_)
  obtain ⟨-, -, e0, e1, -⟩ := block_indices t
  match a with
  | ⟨0, _⟩ => show win0_1.index t (0 : Fin 2) * 1 + 1 * 0 = 0; omega
  | ⟨1, _⟩ => show win0_1.index t (1 : Fin 2) * 2048 + 1 * k.val = k.val; omega

/-- The weight window's block is `γᵀ`. -/
theorem block_gamma (c : Dev nD) (t : Fin cfg0.N) (k : Fin 2048) (q : Fin 1024) :
    iblk m c 2 t (ix2 k q) = m ((c : Thread nD τ).loc main_arg2) (ix2 q k) := by
  unfold iblk
  show (V m c main_v3 : S2048x1024.Idx → Ideal .bf16) (((cfg0.win 2).blk t).view.emb (ix2 k q)) = _
  rw [← entry_gamma m c k q]
  refine congrArg _ (funext fun a => Fin.ext ?_)
  obtain ⟨-, -, -, -, e0, e1, -⟩ := block_indices t
  match a with
  | ⟨0, _⟩ => show win0_2.index t (0 : Fin 2) * 2048 + 1 * k.val = k.val; omega
  | ⟨1, _⟩ => show win0_2.index t (1 : Fin 2) * 1024 + 1 * q.val = q.val; omega

/-- The bias window's block is the bias row. -/
theorem block_bias (c : Dev nD) (t : Fin cfg0.N) (q : Fin 1024) :
    iblk m c 3 t (ix2 (0 : Fin 1) q) = m ((c : Thread nD τ).loc main_arg3) (ix1 q) := by
  unfold iblk
  show (V m c main_v7 : S1x1024.Idx → Ideal .f32) (((cfg0.win 3).blk t).view.emb (ix2 (0 : Fin 1) q)) = _
  rw [← entry_bias m c 0 q]
  refine congrArg _ (funext fun a => Fin.ext ?_)
  obtain ⟨-, -, -, -, -, -, e0, e1, -⟩ := block_indices t
  match a with
  | ⟨0, _⟩ => show win0_3.index t (0 : Fin 2) * 1 + 1 * 0 = 0; omega
  | ⟨1, _⟩ => show win0_3.index t (1 : Fin 2) * 1024 + 1 * q.val = q.val; omega

/-- What point `t` writes back is block `t` of the head. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero offsets_zero]
  simp only [View.ld_unit_zero (S := S512x2048) offsets_zero, View.ld_unit_zero (S := S1x2048) offsets_zero,
    View.ld_unit_zero (S := S2048x1024) offsets_zero, View.ld_unit_zero (S := S1x1024) offsets_zero]
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (iblk m c 3 t) (ix2 p q)
    = result m c (((cfg0.win 4).blk t).view.emb (ix2 p q))
  have hemb : ((cfg0.win 4).blk t).view.emb (ix2 p q) = (ix2 (rowOf t p) q : S8192x1024.Idx) := by
    funext a; apply Fin.ext
    obtain ⟨-, -, -, -, -, -, -, -, e0, e1⟩ := block_indices t
    match a with
    | ⟨0, _⟩ => show win0_4.index t (0 : Fin 2) * 512 + 1 * p.val = t.val * 512 + p.val; omega
    | ⟨1, _⟩ => show win0_4.index t (1 : Fin 2) * 1024 + 1 * q.val = q.val; omega
  rw [hemb]
  exact stored_eq_headAt (iblk m c 0 t) (iblk m c 1 t) (iblk m c 2 t) (iblk m c 3 t) _ _ _ _ (rowOf t p) p q
    (fun k => block_x m c t p k) (fun k => block_theta m c t k) (fun k => block_gamma m c t k q) (block_bias m c t q)

/-- An entry of the array is in point `t`'s block iff each coordinate is in the block's range. -/
theorem mem_block (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v8).slice (win0_4.rect t)).set ↔ _
  rw [View.set_slice_whole, Rect.mem_set_unit]
  exact Iff.rfl

/-- Row `r` is in row block `r / 512`: the 16 blocks tile the array. -/
theorem covered (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  refine ⟨⟨(i 0).val / 512, lt_of_lt_of_eq (show (i 0).val / 512 < 16 by omega) N_0.symm⟩, flush0_4 _, ?_⟩
  rw [mem_block]
  obtain ⟨-, -, -, -, -, -, -, -, e0, e1⟩ := block_indices ⟨(i 0).val / 512, lt_of_lt_of_eq (show (i 0).val / 512 < 16 by omega) N_0.symm⟩
  intro a
  match a with
  | ⟨0, _⟩ =>
    show win0_4.index _ (0 : Fin 2) * 512 ≤ (i 0).val ∧ (i 0).val < win0_4.index _ (0 : Fin 2) * 512 + 512
    rw [e0]; dsimp only; omega
  | ⟨1, _⟩ =>
    show win0_4.index _ (1 : Fin 2) * 1024 ≤ (i 1).val ∧ (i 1).val < win0_4.index _ (1 : Fin 2) * 1024 + 1024
    rw [e1]; omega

/-- The result array after the run is the head of the arguments. -/
theorem final (c : Dev nD) : (dats m 0 c).arrAt 4 cfg0.N = result m c :=
  (dats m 0 c).arrAt_eq_of_cover 4 (result m c) (fun t _ => flushed_eq m c t) covered

/-- Every run ends with the result array at the head of the arguments, the arguments unchanged. -/
theorem run : θ_run (defs (F := Ideal)) (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.HeadValue

end
-- ==== Proof.RefPayload.lean ====
/-
  The two-pass kernel's body at an entry of its blocks. The body keeps a 512 × 1024 accumulator. On the first pass over a
  row block it stores zero there; on every pass it multiplies the 512 × 1024 block of `x` by the one-row block of `θ` copied
  down the rows, contracts the product against the 1024 × 1024 block of `γᵀ` into a zero splat, and adds that to the
  accumulator; on the last pass it adds the bias row copied down the rows and stores the sum as the output block. So the
  entry `(p, q)` it finally stores is `((0 + ∑ lower 1024 features) + ∑ upper 1024 features) + b[q]`, which is the head
  there because a sum over the 2048 features splits into its halves.
-/
import proofs.«124155_g2000103749768661_pallasbulk_655_2_alg».proof.Proof.Gen.ReferenceIdeal.Skeleton
import proofs.«124155_g2000103749768661_pallasbulk_655_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.ReferenceIdeal.HeadValue

open Cert.ReferenceIdeal Cert.ReferenceIdeal.Gen

/-! ## The contraction's operand indices, axis by axis -/

theorem lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

theorem rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-! ## The three stored values at an entry -/

/-- One pass's contraction into the zero splat, at `(p, q)`: the sum over the block's 1024 features. -/
theorem product_apply (a : FVec Ideal S512x1024 .f32) (g : FVec Ideal S1024x1024 .f32) (p : Fin 512) (q : Fin 1024) :
    matmul dot_S512x1024_S1024x1024_S512x1024_1_0_0_1_n_n none a g (constant S512x1024 .f32 0x00000000#32) (ix2 p q)
      = ∑ k : Fin 1024, a (ix2 p k) * g (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k :=
    funext fun ax => Fin.ext (by
      match ax with
      | ⟨0, _⟩ => exact lhs_0 _ _
      | ⟨1, _⟩ => exact (lhs_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q :=
    funext fun ax => Fin.ext (by
      match ax with
      | ⟨0, _⟩ => exact (rhs_0 _ _).trans hk
      | ⟨1, _⟩ => exact rhs_1 _ _)
  rw [el, er]

/-- The reset stores zero everywhere. -/
theorem reset_apply (j : S512x1024.Idx) : k0_pay1 (F := Ideal) j = 0 := by
  unfold k0_pay1
  simp only [shapeCast_self]
  rw [broadcast_apply]
  exact Ideal.ofBits_zero_f32

/-- A pass leaves, at `(p, q)`, the accumulator's entry plus the pass's contraction there. -/
theorem pass_apply (x0 : Vec Ideal S512x1024 .f32) (x1 : Vec Ideal S1x1024 .f32) (acc : Vec Ideal S512x1024 .f32)
    (x2 : Vec Ideal S1024x1024 .f32) (p : Fin 512) (q : Fin 1024) :
    k0_pay2 (F := Ideal) x0 x1 acc x2 (ix2 p q)
      = acc (ix2 p q) + ∑ k : Fin 1024, x0 (ix2 p k) * x1 (ix2 (0 : Fin 1) k) * x2 (ix2 k q) := by
  unfold k0_pay2
  simp only [shapeCast_self]
  rw [addf_apply, product_apply]
  refine congrArg (acc (ix2 p q) + ·) (Finset.sum_congr rfl fun k _ => ?_)
  rw [mulf_apply, broadcastTo_1b_ab_apply]

/-- The last pass's output store: the accumulator's entry plus the bias of its column. -/
theorem biased_apply (acc : Vec Ideal S512x1024 .f32) (x3 : Vec Ideal S1x1024 .f32) (p : Fin 512) (q : Fin 1024) :
    k0_pay3 (F := Ideal) acc x3 (ix2 p q) = acc (ix2 p q) + x3 (ix2 (0 : Fin 1) q) := by
  unfold k0_pay3
  simp only [shapeCast_self]
  rw [addf_apply, broadcastTo_1b_ab_apply]

/-- The output block of a row block, over the two passes' blocks: when the first pass's blocks are the lower 1024 features
    of row `R` of `x`, of `θ` and of `γᵀ`, the second pass's the upper 1024, and the bias block the bias row, the stored
    entry `(p, q)` is the head at `(R, q)`. -/
theorem stored_eq_headAt (a0 : Vec Ideal S512x1024 .f32) (a1 : Vec Ideal S1x1024 .f32) (a2 : Vec Ideal S1024x1024 .f32)
    (b0 : Vec Ideal S512x1024 .f32) (b1 : Vec Ideal S1x1024 .f32) (b2 : Vec Ideal S1024x1024 .f32)
    (x3 : Vec Ideal S1x1024 .f32) (X : FVec Ideal ⟨2, ![8192, 2048]⟩ .f32) (θ : FVec Ideal ⟨1, ![2048]⟩ .f32)
    (γ : FVec Ideal ⟨2, ![1024, 2048]⟩ .f32) (b : FVec Ideal ⟨1, ![1024]⟩ .f32) (R : Fin 8192) (p : Fin 512) (q : Fin 1024)
    (ha0 : ∀ k : Fin 1024, a0 (ix2 p k) = X (ix2 R (Cert.ModLinear.lo k)))
    (ha1 : ∀ k : Fin 1024, a1 (ix2 (0 : Fin 1) k) = θ (ix1 (Cert.ModLinear.lo k)))
    (ha2 : ∀ k : Fin 1024, a2 (ix2 k q) = γ (ix2 q (Cert.ModLinear.lo k)))
    (hb0 : ∀ k : Fin 1024, b0 (ix2 p k) = X (ix2 R (Cert.ModLinear.hi k)))
    (hb1 : ∀ k : Fin 1024, b1 (ix2 (0 : Fin 1) k) = θ (ix1 (Cert.ModLinear.hi k)))
    (hb2 : ∀ k : Fin 1024, b2 (ix2 k q) = γ (ix2 q (Cert.ModLinear.hi k)))
    (h3 : x3 (ix2 (0 : Fin 1) q) = b (ix1 q)) :
    k0_pay3 (F := Ideal) (k0_pay2 b0 b1 (k0_pay2 a0 a1 (k0_pay1 (F := Ideal)) a2) b2) x3 (ix2 p q) = Cert.ModLinear.headAt X θ γ b R q := by
  rw [biased_apply, pass_apply, pass_apply, reset_apply, h3]
  unfold Cert.ModLinear.headAt
  rw [Cert.ModLinear.sum_halves]
  refine congrArg (· + b (ix1 q)) ?_
  refine congrArg₂ (fun s₁ s₂ : EReal => (0 + s₁) + s₂) (Finset.sum_congr rfl fun k _ => ?_) (Finset.sum_congr rfl fun k _ => ?_)
  · rw [ha0 k, ha1 k, ha2 k]
  · rw [hb0 k, hb1 k, hb2 k]

end Cert.ReferenceIdeal.HeadValue

end
-- ==== Proof.RefPieces.lean ====
/-
  What each case of the two-pass kernel's body leaves behind, as values of the blocks it loads.
  On a first pass (the reset is taken, the output store is not) the accumulator is stored twice — zero, then the pass's
  sum over the zero just stored and read back — so it ends at the pass applied to the zero block.
  On a last pass (no reset, the output store taken) the accumulator is updated from what the pass before left, read back,
  and the output block is that plus the bias.
-/
import proofs.«124155_g2000103749768661_pallasbulk_655_2_alg».proof.Proof.Gen.ReferenceIdeal.Frame
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.Tactic Idealize.SL.Sem

namespace Cert.ReferenceIdeal.HeadValue

open Cert.ReferenceIdeal Cert.ReferenceIdeal.Gen

variable {F : FTy → Type} [FloatOps F]

theorem offsets_zero : (![0, 0] : Fin 2 → Nat) = fun _ => 0 := funext fun a => by fin_cases a <;> rfl

/-- A first pass leaves the accumulator at the pass's update of the zero block. -/
theorem acc_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x1024 .f32) (x1 : Vec F S1x1024 .f32) (x2 : Vec F S1024x1024 .f32) (x3 : Vec F S1x1024 .f32) :
    sout0_A_0 c i arg2 harg2 arg3 harg3 arg4 harg4 arg5 harg5 arg6 harg6 arg7 harg7 hc0 hc1 x0 x1 x2 x3 = k0_pay2 x0 x1 (k0_pay1 (F := F)) x2 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x1024) offsets_zero, View.readCov_unit_zero (S := S512x1024) _ offsets_zero]
  simp only [View.readAt_eq_ld, harg2.read_unread, harg3.read_unread, harg4.read_unread,
    View.ld_unit_zero (S := S512x1024) offsets_zero, View.ld_unit_zero (S := S1x1024) offsets_zero,
    View.ld_unit_zero (S := S1024x1024) offsets_zero]

/-- A last pass leaves the output block at the bias added to the pass's update of what the accumulator held. -/
theorem out_last (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1x1024 .f32) (x2 : Vec F S1024x1024 .f32) (x3 : Vec F S1x1024 .f32) (xs0 : Vec F S512x1024 .f32) :
    out0_B_4 c i arg2 harg2 arg3 harg3 arg4 harg4 arg5 harg5 arg6 harg6 arg7 harg7 hc0 hc1 x0 x1 x2 x3 xs0 = k0_pay3 (k0_pay2 x0 x1 xs0 x2) x3 := by
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  sl_unfold_words
  rw [View.canon_unit_zero offsets_zero, View.readCov_unit_zero (S := S512x1024) _ offsets_zero]
  simp only [View.readAt_eq_ld, harg2.read_unread, harg3.read_unread, harg4.read_unread, harg5.read_unread,
    harg7.read_unread, View.ld_unit_zero (S := S512x1024) offsets_zero, View.ld_unit_zero (S := S1x1024) offsets_zero,
    View.ld_unit_zero (S := S1024x1024) offsets_zero]

end Cert.ReferenceIdeal.HeadValue

end
-- ==== Proof.RefHost.lean ====
/-
  What the two-pass kernel's region finds in its four input arrays. Before the region the host pads each argument by
  nothing, transposes `γ`, and reshapes `θ` and the bias to one-row matrices. So the region's arrays are: `x` itself; `θ` as
  the one row `[0, k] ↦ θ[k]`; `γᵀ`, `[k, q] ↦ γ[q, k]`; the bias as the one row `[0, q] ↦ b[q]`.
-/
import proofs.«124155_g2000103749768661_pallasbulk_655_2_alg».proof.Proof.Gen.ReferenceIdeal.Frame
import proofs.«124155_g2000103749768661_pallasbulk_655_2_alg».proof.Proof.LibZeroPad
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx Idealize.SL.Sem

namespace Cert.ReferenceIdeal.HeadValue

open Cert.ReferenceIdeal Cert.ReferenceIdeal.Gen

variable (m : (ℓ : Loc nD τ sig) → Buf (Elt Ideal) ℓ)

/-- The row-block window's array is `x`. -/
theorem entry_x (c : Dev nD) :
    (V m c main_v0 : S8192x2048.Idx → Ideal .f32) = m ((c : Thread nD τ).loc main_arg0) := by
  have e : (V m c main_v0 : S8192x2048.Idx → Ideal .f32)
      = pad S8192x2048 ![0, 0] ![0, 0] ![0, 0] (m ((c : Thread nD τ).loc main_arg0))
          (sitofp (F := Ideal) .f32 (constantI S_ 32 0#32)) pads_S8192x2048_S8192x2048_000_000 h_S_ := by
    dsimp only [V]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, ZeroPad.pad_matrix]

/-- The modulation window's array is `θ` as one row. -/
theorem entry_theta (c : Dev nD) (u : Fin 1) (k : Fin 2048) :
    (V m c main_v4 : S1x2048.Idx → Ideal .f32) (ix2 u k) = m ((c : Thread nD τ).loc main_arg1) (ix1 k) := by
  have e : (V m c main_v4 : S1x2048.Idx → Ideal .f32)
      = shapeCast S1x2048 (pad S2048 ![0] ![0] ![0] (m ((c : Thread nD τ).loc main_arg1))
          (sitofp (F := Ideal) .f32 (constantI S_ 32 0#32)) pads_S2048_S2048_000 h_S_) shapeCasts_S2048_S1x2048 := by
    dsimp only [V]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, ZeroPad.pad_vector, shapeCast_a_1a_apply]

/-- The weight window's array is `γ` transposed. -/
theorem entry_gamma (c : Dev nD) (k : Fin 2048) (q : Fin 1024) :
    (V m c main_v2 : S2048x1024.Idx → Ideal .f32) (ix2 k q) = m ((c : Thread nD τ).loc main_arg2) (ix2 q k) := by
  have e : (V m c main_v2 : S2048x1024.Idx → Ideal .f32)
      = pad S2048x1024 ![0, 0] ![0, 0] ![0, 0]
          (transpose S2048x1024 [1, 0] (m ((c : Thread nD τ).loc main_arg2)) transposes_S1024x2048_S2048x1024_1_0)
          (sitofp (F := Ideal) .f32 (constantI S_ 32 0#32)) pads_S2048x1024_S2048x1024_000_000 h_S_ := by
    dsimp only [V]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, ZeroPad.pad_matrix, transpose_ix2_apply]

/-- The bias window's array is the bias as one row. -/
theorem entry_bias (c : Dev nD) (u : Fin 1) (q : Fin 1024) :
    (V m c main_v6 : S1x1024.Idx → Ideal .f32) (ix2 u q) = m ((c : Thread nD τ).loc main_arg3) (ix1 q) := by
  have e : (V m c main_v6 : S1x1024.Idx → Ideal .f32)
      = shapeCast S1x1024 (pad S1024 ![0] ![0] ![0] (m ((c : Thread nD τ).loc main_arg3))
          (sitofp (F := Ideal) .f32 (constantI S_ 32 0#32)) pads_S1024_S1024_000 h_S_) shapeCasts_S1024_S1x1024 := by
    dsimp only [V]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e, ZeroPad.pad_vector, shapeCast_a_1a_apply]

end Cert.ReferenceIdeal.HeadValue

end
-- ==== Proof.RefValue.lean ====
/-
  The two-pass kernel's result array. The grid has 32 points, two per row block: point `2 i` is the first pass over row
  block `i` (features 0..1023), point `2 i + 1` the last pass (features 1024..2047), and only the last pass writes the
  output block back. The accumulator a last pass starts from is what the first pass of the same row block left, which is
  that pass applied to zero — so the block written back at point `2 i + 1` depends on the two points' blocks alone, and
  its entry `(p, q)` is the head at `(512 i + p, q)`. The 16 written blocks tile the 8192 rows, so the array ends holding
  the head of the four arguments.
-/
import proofs.«124155_g2000103749768661_pallasbulk_655_2_alg».proof.Proof.Gen.ReferenceIdeal.Value
import proofs.«124155_g2000103749768661_pallasbulk_655_2_alg».proof.Proof.Spec
import proofs.«124155_g2000103749768661_pallasbulk_655_2_alg».proof.Proof.RefPayload
import proofs.«124155_g2000103749768661_pallasbulk_655_2_alg».proof.Proof.RefPieces
import proofs.«124155_g2000103749768661_pallasbulk_655_2_alg».proof.Proof.RefHost
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.ReferenceIdeal.HeadValue

open Cert.ReferenceIdeal Cert.ReferenceIdeal.Gen

variable (m : (ℓ : Loc nD τ sig) → Buf (Elt Ideal) ℓ) (ρ : Dev nD → PrngReg)

/-- The head of the four arguments as core `c` holds them. -/
abbrev result (c : Dev nD) : S8192x1024.Idx → Ideal .f32 :=
  Cert.ModLinear.head (m ((c : Thread nD τ).loc main_arg0)) (m ((c : Thread nD τ).loc main_arg1))
    (m ((c : Thread nD τ).loc main_arg2)) (m ((c : Thread nD τ).loc main_arg3))

/-- The index maps over the grid: at point `t` the row block is `t / 2` and the feature half `t % 2`. -/
theorem block_indices : ∀ t : Fin cfg0.N,
    win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = t.val % 2 ∧ win0_2.index t (1 : Fin 2) = 0
    ∧ win0_3.index t (0 : Fin 2) = 0 ∧ win0_3.index t (1 : Fin 2) = 0
    ∧ win0_4.index t (0 : Fin 2) = t.val / 2 ∧ win0_4.index t (1 : Fin 2) = 0 :=
  (by decide +kernel : ∀ t : Fin grid0.N, _)

/-- The row-block window's block at `t`: rows `512 (t / 2) …`, features `1024 (t % 2) …` of `x`. -/
theorem block_x (c : Dev nD) (t : Fin cfg0.N) (p : Fin 512) (k : Fin 1024) (R : Fin 8192) (f : Fin 2048)
    (hR : R.val = t.val / 2 * 512 + p.val) (hf : f.val = t.val % 2 * 1024 + k.val) :
    iblk m c 0 t (ix2 p k) = m ((c : Thread nD τ).loc main_arg0) (ix2 R f) := by
  unfold iblk
  show (V m c main_v0 : S8192x2048.Idx → Ideal .f32) (((cfg0.win 0).blk t).view.emb (ix2 p k)) = _
  rw [entry_x]
  refine congrArg _ (funext fun a => Fin.ext ?_)
  obtain ⟨e0, e1, -⟩ := block_indices t
  match a with
  | ⟨0, _⟩ => show win0_0.index t (0 : Fin 2) * 512 + 1 * p.val = R.val; omega
  | ⟨1, _⟩ => show win0_0.index t (1 : Fin 2) * 1024 + 1 * k.val = f.val; omega

/-- The modulation window's block at `t`: features `1024 (t % 2) …` of the row `θ`. -/
theorem block_theta (c : Dev nD) (t : Fin cfg0.N) (k : Fin 1024) (f : Fin 2048) (hf : f.val = t.val % 2 * 1024 + k.val) :
    iblk m c 1 t (ix2 (0 : Fin 1) k) = m ((c : Thread nD τ).loc main_arg1) (ix1 f) := by
  unfold iblk
  show (V m c main_v4 : S1x2048.Idx → Ideal .f32) (((cfg0.win 1).blk t).view.emb (ix2 (0 : Fin 1) k)) = _
  rw [← entry_theta m c 0 f]
  refine congrArg _ (funext fun a => Fin.ext ?_)
  obtain ⟨-, -, e0, e1, -⟩ := block_indices t
  match a with
  | ⟨0, _⟩ => show win0_1.index t (0 : Fin 2) * 1 + 1 * 0 = 0; omega
  | ⟨1, _⟩ => show win0_1.index t (1 : Fin 2) * 1024 + 1 * k.val = f.val; omega

/-- The weight window's block at `t`: rows `1024 (t % 2) …` of `γᵀ`. -/
theorem block_gamma (c : Dev nD) (t : Fin cfg0.N) (k : Fin 1024) (q : Fin 1024) (f : Fin 2048)
    (hf : f.val = t.val % 2 * 1024 + k.val) :
    iblk m c 2 t (ix2 k q) = m ((c : Thread nD τ).loc main_arg2) (ix2 q f) := by
  unfold iblk
  show (V m c main_v2 : S2048x1024.Idx → Ideal .f32) (((cfg0.win 2).blk t).view.emb (ix2 k q)) = _
  rw [← entry_gamma m c f q]
  refine congrArg _ (funext fun a => Fin.ext ?_)
  obtain ⟨-, -, -, -, e0, e1, -⟩ := block_indices t
  match a with
  | ⟨0, _⟩ => show win0_2.index t (0 : Fin 2) * 1024 + 1 * k.val = f.val; omega
  | ⟨1, _⟩ => show win0_2.index t (1 : Fin 2) * 1024 + 1 * q.val = q.val; omega

/-- The bias window's block is the bias row. -/
theorem block_bias (c : Dev nD) (t : Fin cfg0.N) (q : Fin 1024) :
    iblk m c 3 t (ix2 (0 : Fin 1) q) = m ((c : Thread nD τ).loc main_arg3) (ix1 q) := by
  unfold iblk
  show (V m c main_v6 : S1x1024.Idx → Ideal .f32) (((cfg0.win 3).blk t).view.emb (ix2 (0 : Fin 1) q)) = _
  rw [← entry_bias m c 0 q]
  refine congrArg _ (funext fun a => Fin.ext ?_)
  obtain ⟨-, -, -, -, -, -, e0, e1, -⟩ := block_indices t
  match a with
  | ⟨0, _⟩ => show win0_3.index t (0 : Fin 2) * 1 + 1 * 0 = 0; omega
  | ⟨1, _⟩ => show win0_3.index t (1 : Fin 2) * 1024 + 1 * q.val = q.val; omega

/-- After a first pass (an even point) the accumulator holds that pass applied to the zero block. -/
theorem acc_even (c : Dev nD) (n : ℕ) (hn : n < cfg0.N) (he : n % 2 = 0) :
    (outsAt0 m c n hn).2
      = k0_pay2 (F := Ideal) (iblk m c 0 ⟨n, hn⟩) (iblk m c 1 ⟨n, hn⟩) (k0_pay1 (F := Ideal)) (iblk m c 2 ⟨n, hn⟩) := by
  have h := outsAt0_A m c ⟨n, hn⟩ he (by dsimp only; omega)
  rw [show outsAt0 m c n hn = _ from h]
  dsimp only
  rw [acc_first]

/-- What a last pass (an odd point) writes back is its block of the head. -/
theorem flushed_eq (c : Dev nD) (t : Fin cfg0.N) (hf : (cfg0.win 4).flush t = true) :
    (dats m 0 c).flushed 4 t = ((cfg0.win 4).blk t).view.read (Elt Ideal) (result m c) := by
  have h1 : t.val % 2 = 1 := (flush0_4 t).mp hf
  have h0 : ¬t.val % 2 = 0 := by omega
  have hN : t.val < 32 := lt_of_lt_of_eq t.isLt N_0
  rw [Cert.ReferenceIdeal.Value.flushed4_B m c t h0 h1, out_last, acc_even m c (t.val - 1) _ (by omega)]
  funext j
  obtain ⟨p, q, rfl⟩ : ∃ (p : Fin 512) (q : Fin 1024), j = ix2 p q := ⟨j 0, j 1, eq_ix2 j⟩
  have hs : t.val - 1 < cfg0.N := Nat.lt_of_le_of_lt (Nat.sub_le _ _) t.isLt
  show k0_pay3 (F := Ideal) (k0_pay2 (iblk m c 0 t) (iblk m c 1 t)
      (k0_pay2 (iblk m c 0 ⟨t.val - 1, hs⟩) (iblk m c 1 ⟨t.val - 1, hs⟩) (k0_pay1 (F := Ideal)) (iblk m c 2 ⟨t.val - 1, hs⟩))
      (iblk m c 2 t)) (iblk m c 3 t) (ix2 p q)
    = result m c (((cfg0.win 4).blk t).view.emb (ix2 p q))
  have hp : p.val < 512 := p.isLt
  let R : Fin 8192 := ⟨t.val / 2 * 512 + p.val, by omega⟩
  have hemb : ((cfg0.win 4).blk t).view.emb (ix2 p q) = (ix2 R q : S8192x1024.Idx) := by
    funext a; apply Fin.ext
    obtain ⟨-, -, -, -, -, -, -, -, e0, e1⟩ := block_indices t
    match a with
    | ⟨0, _⟩ => show win0_4.index t (0 : Fin 2) * 512 + 1 * p.val = t.val / 2 * 512 + p.val; omega
    | ⟨1, _⟩ => show win0_4.index t (1 : Fin 2) * 1024 + 1 * q.val = q.val; omega
  rw [hemb]
  exact stored_eq_headAt (iblk m c 0 ⟨t.val - 1, hs⟩) (iblk m c 1 ⟨t.val - 1, hs⟩) (iblk m c 2 ⟨t.val - 1, hs⟩)
    (iblk m c 0 t) (iblk m c 1 t) (iblk m c 2 t) (iblk m c 3 t) _ _ _ _ R p q
    (fun k => block_x m c ⟨t.val - 1, hs⟩ p k R (Cert.ModLinear.lo k) (by show t.val / 2 * 512 + p.val = (t.val - 1) / 2 * 512 + p.val; omega)
      (by show k.val = (t.val - 1) % 2 * 1024 + k.val; omega))
    (fun k => block_theta m c ⟨t.val - 1, hs⟩ k (Cert.ModLinear.lo k) (by show k.val = (t.val - 1) % 2 * 1024 + k.val; omega))
    (fun k => block_gamma m c ⟨t.val - 1, hs⟩ k q (Cert.ModLinear.lo k) (by show k.val = (t.val - 1) % 2 * 1024 + k.val; omega))
    (fun k => block_x m c t p k R (Cert.ModLinear.hi k) rfl (by show 1024 + k.val = t.val % 2 * 1024 + k.val; omega))
    (fun k => block_theta m c t k (Cert.ModLinear.hi k) (by show 1024 + k.val = t.val % 2 * 1024 + k.val; omega))
    (fun k => block_gamma m c t k q (Cert.ModLinear.hi k) (by show 1024 + k.val = t.val % 2 * 1024 + k.val; omega))
    (block_bias m c t q)

/-- An entry of the array is in point `t`'s block iff each coordinate is in the block's range. -/
theorem mem_block (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v7).slice (win0_4.rect t)).set ↔ _
  rw [View.set_slice_whole, Rect.mem_set_unit]
  exact Iff.rfl

/-- Row `r` is written by the last pass over row block `r / 512`, point `2 (r / 512) + 1`: the 16 written blocks tile the array. -/
theorem covered (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hlt : 2 * ((i 0).val / 512) + 1 < cfg0.N := lt_of_lt_of_eq (show 2 * ((i 0).val / 512) + 1 < 32 by omega) N_0.symm
  refine ⟨⟨2 * ((i 0).val / 512) + 1, hlt⟩, (flush0_4 _).mpr (by show (2 * ((i 0).val / 512) + 1) % 2 = 1; omega), ?_⟩
  rw [mem_block]
  obtain ⟨-, -, -, -, -, -, -, -, e0, e1⟩ := block_indices ⟨2 * ((i 0).val / 512) + 1, hlt⟩
  have e0' : win0_4.index ⟨2 * ((i 0).val / 512) + 1, hlt⟩ (0 : Fin 2) = (2 * ((i 0).val / 512) + 1) / 2 := e0
  intro a
  match a with
  | ⟨0, _⟩ =>
    show win0_4.index _ (0 : Fin 2) * 512 ≤ (i 0).val ∧ (i 0).val < win0_4.index _ (0 : Fin 2) * 512 + 512
    rw [e0']; omega
  | ⟨1, _⟩ =>
    show win0_4.index _ (1 : Fin 2) * 1024 ≤ (i 1).val ∧ (i 1).val < win0_4.index _ (1 : Fin 2) * 1024 + 1024
    rw [e1]; omega

/-- The result array after the run is the head of the arguments. -/
theorem final (c : Dev nD) : (dats m 0 c).arrAt 4 cfg0.N = result m c :=
  (dats m 0 c).arrAt_eq_of_cover 4 (result m c) (flushed_eq m c) covered

/-- Every run ends with the result array at the head of the arguments, the arguments unchanged. -/
theorem run : θ_run (defs (F := Ideal)) (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.ReferenceIdeal.Value.run_blocks m ρ)

end Cert.ReferenceIdeal.HeadValue

end
-- ==== Proof.lean ====
/-
  A modulated linear head, `out[r, t] = (∑ f, (x[r, f] · θ[f]) · γ[t, f]) + b[t]`, computed two ways on a TensorCore.

  The kernel walks 16 row blocks of 512 rows; for each it scales the block by `θ`, narrows it to bf16, contracts all 2048
  features against `γᵀ` (narrowed to bf16 on the host) in one product, and adds the bias.
  The reference walks the same 16 row blocks but takes the 2048 features in two halves of 1024, carrying an f32
  accumulator: zero, plus the lower half's product, plus the upper half's product, and only then the bias.

  Over the extended reals a change of float format is the identity and a product into a zero accumulator is a plain sum, so
  the kernel's entry is `(∑ all 2048 features) + b[t]` and the reference's `((0 + ∑ lower half) + ∑ upper half) + b[t]`. These
  are equal because a finite sum splits into the sums over its two halves, which needs only that addition of extended
  reals is associative with unit zero; no entry has to be finite, so the precondition is never opened.

  Both programs are shown to end with their result array at the same function `Cert.ModLinear.head` of their argument
  arrays (Proof/KernelValue.lean, Proof/RefValue.lean); the two runs are then paired at that one term. The three frame
  claims are the programs' frame runs, and the kernel's idealization rewrote nothing.
-/
import proofs.«124155_g2000103749768661_pallasbulk_655_2_alg».proof.Defs
import proofs.«124155_g2000103749768661_pallasbulk_655_2_alg».proof.Proof.Gen.Kernel
import proofs.«124155_g2000103749768661_pallasbulk_655_2_alg».proof.Proof.Gen.Kernel.Frame
import proofs.«124155_g2000103749768661_pallasbulk_655_2_alg».proof.Proof.Gen.KernelIdeal
import proofs.«124155_g2000103749768661_pallasbulk_655_2_alg».proof.Proof.Gen.KernelIdeal.Frame
import proofs.«124155_g2000103749768661_pallasbulk_655_2_alg».proof.Proof.Gen.ReferenceIdeal
import proofs.«124155_g2000103749768661_pallasbulk_655_2_alg».proof.Proof.Gen.ReferenceIdeal.Frame
import proofs.«124155_g2000103749768661_pallasbulk_655_2_alg».proof.Proof.Gen.Pre_finite_inputs
import proofs.«124155_g2000103749768661_pallasbulk_655_2_alg».proof.Proof.KernelValue
import proofs.«124155_g2000103749768661_pallasbulk_655_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments alone. -/
theorem frame_kernel : Cert.frame_Kernel := fun m ρ _ => Cert.Kernel.Gen.frame m ρ

/-- So does the kernel read over the extended reals, -/
theorem frame_kernelIdeal : Cert.frame_KernelIdeal := fun m ρ _ => Cert.KernelIdeal.Gen.frame m ρ

/-- and so does the two-pass reference. -/
theorem frame_referenceIdeal : Cert.frame_ReferenceIdeal := fun m ρ _ => Cert.ReferenceIdeal.Gen.frame m ρ

/-- The idealization changed no operation of the kernel. -/
theorem preserves : Cert.preserves_Kernel_KernelIdeal := trivial

/-- From arguments that agree, both programs end with their result at the head of those arguments. -/
theorem algebraic : Cert.algebraic_KernelIdeal_ReferenceIdeal := by
  intro m ρ m' ρ' _ hagree
  refine ⟨fun c => Cert.KernelIdeal.HeadValue.result m c, Cert.KernelIdeal.HeadValue.run m ρ, ?_⟩
  refine (θ_run Cert.ReferenceIdeal.defs _ _).mono (fun _ h c => ⟨(h c).1.trans ?_, (h c).2⟩)
    (Cert.ReferenceIdeal.HeadValue.run m' ρ')
  show Cert.ModLinear.head _ _ _ _ = Cert.ModLinear.head _ _ _ _
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
